-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x64 : Shape := ⟨2, ![65536, 64]⟩
abbrev S576x32 : Shape := ⟨2, ![576, 32]⟩
abbrev S32 : Shape := ⟨1, ![32]⟩
abbrev S32x1024 : Shape := ⟨2, ![32, 1024]⟩
abbrev S1024 : Shape := ⟨1, ![1024]⟩
abbrev S832x1 : Shape := ⟨2, ![832, 1]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S576x32 : S_.BroadcastsInDim S576x32 (![] : Fin 0 → Fin S576x32.rank)
  reducesTo_S576x32_S_d0_1 : S576x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S1024 : S_.BroadcastsInDim S1024 (![] : Fin 0 → Fin S1024.rank)
  reducesTo_S1024_S_d0 : S1024.ReducesTo [0] S_
  bcast_S_S832x1 : S_.BroadcastsInDim S832x1 (![] : Fin 0 → Fin S832x1.rank)
  reducesTo_S832x1_S_d0_1 : S832x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024 .f32) (main_arg8 : FVec F S832x1 .f32) (main_arg9 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S832x1 .f32 := Host.absf main_arg8
  let main_cst_14 : FVec F S_ .f32 := constant S_ .f32 0x7F800000#32
  let main_v40 : FVec F S832x1 .f32 := broadcastInDim S832x1 ![] bcast_S_S832x1 main_cst_14
  let main_v41 : IVec S832x1 1 := cmpf .olt main_v39 main_v40
  let main_c_15 : IVec S_ 1 := constantI S_ 1 1#1
  let main_v42 : IVec S_ 1 := (fun x v => Host.reduce IntOp.andi x v reducesTo_S832x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S576x32 .f32) (main_arg5 : FVec F S32 .f32) (main_arg6 : FVec F S32x1024 .f32) (main_arg7 : FVec F S1024 .f32) (main_arg8 : FVec F S832x1 .f32) (main_arg9 : FVec F S1 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S576x32 .f32 := Host.absf main_arg4
  let main_cst_6 : FVec F S_ .f32 := constant S_ .f32 0x7F800000#32
  let main_v20 : FVec F S576x32 .f32 := broadcastInDim S576x32 ![] bcast_S_S576x32 main_cst_6
  let main_v21 : IVec S576x32 1 := cmpf .olt main_v19 main_v20
  let main_c_7 : IVec S_ 1 := constantI S_ 1 1#1
  let main_v22 : IVec S_ 1 := (fun x v => Host.reduce IntOp.andi x v reducesTo_S576x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x256 .f32) (main_arg1 : FVec F S65536x256 .f32) (main_arg2 : FVec F S65536x64 .f32) (main_arg3 : FVec F S65536x256 .f32) (main_arg4 : FVec F S576x32 .f32) (main_arg5 : FVec F S32 .f32) (main_arg6 : FVec F S32x1024 .f32) (main_arg7 : FVec F S1024 .f32) (main_arg8 : FVec F S832x1 .f32) (main_arg9 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_v13 main_v16
-- ==== Kernel.lean ====
abbrev S65536x256 : Shape := ⟨2, ![65536, 256]⟩
abbrev S65536x64 : Shape := ⟨2, ![65536, 64]⟩
abbrev S576x32 : Shape := ⟨2, ![576, 32]⟩
abbrev S32 : Shape := ⟨1, ![32]⟩
abbrev S32x1024 : Shape := ⟨2, ![32, 1024]⟩
abbrev S1024 : Shape := ⟨1, ![1024]⟩
abbrev S832x1 : Shape := ⟨2, ![832, 1]⟩
abbrev S1 : Shape := ⟨1, ![1]⟩
abbrev S1x32 : Shape := ⟨2, ![1, 32]⟩
abbrev S1x1024 : Shape := ⟨2, ![1, 1024]⟩
abbrev S1x1 : Shape := ⟨2, ![1, 1]⟩
abbrev S65536x1 : Shape := ⟨2, ![65536, 1]⟩
abbrev S1024x256 : Shape := ⟨2, ![1024, 256]⟩
abbrev S1024x64 : Shape := ⟨2, ![1024, 64]⟩
abbrev S1024x1 : Shape := ⟨2, ![1024, 1]⟩
abbrev S1024x576 : Shape := ⟨2, ![1024, 576]⟩
abbrev S1024x32 : Shape := ⟨2, ![1024, 32]⟩
abbrev S1024x1024 : Shape := ⟨2, ![1024, 1024]⟩
abbrev S1024x832 : Shape := ⟨2, ![1024, 832]⟩

abbrev nBuf : Space → Nat
  | .hbm => 16
  | .vmem => 20
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x64, .f32⟩
  | .hbm, ⟨3, _⟩ => ⟨S65536x256, .f32⟩
  | .hbm, ⟨4, _⟩ => ⟨S576x32, .f32⟩
  | .hbm, ⟨5, _⟩ => ⟨S32, .f32⟩
  | .hbm, ⟨6, _⟩ => ⟨S32x1024, .f32⟩
  | .hbm, ⟨7, _⟩ => ⟨S1024, .f32⟩
  | .hbm, ⟨8, _⟩ => ⟨S832x1, .f32⟩
  | .hbm, ⟨9, _⟩ => ⟨S1, .f32⟩
  | .hbm, ⟨10, _⟩ => ⟨S1x32, .f32⟩
  | .hbm, ⟨11, _⟩ => ⟨S1x1024, .f32⟩
  | .hbm, ⟨12, _⟩ => ⟨S1x1, .f32⟩
  | .hbm, ⟨13, _⟩ => ⟨S65536x256, .f32⟩
  | .hbm, ⟨14, _⟩ => ⟨S65536x256, .f32⟩
  | .hbm, ⟨15, _⟩ => ⟨S65536x1, .f32⟩
  | .local _ .vmem, ⟨0, _⟩ => ⟨S1024x256, .f32⟩
  | .local _ .vmem, ⟨1, _⟩ => ⟨S1024x256, .f32⟩
  | .local _ .vmem, ⟨2, _⟩ => ⟨S1024x64, .f32⟩
  | .local _ .vmem, ⟨3, _⟩ => ⟨S1024x64, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S576x32, .f32⟩
  | .local _ .vmem, ⟨9, _⟩ => ⟨S1x32, .f32⟩
  | .local _ .vmem, ⟨10, _⟩ => ⟨S32x1024, .f32⟩
  | .local _ .vmem, ⟨11, _⟩ => ⟨S1x1024, .f32⟩
  | .local _ .vmem, ⟨12, _⟩ => ⟨S832x1, .f32⟩
  | .local _ .vmem, ⟨13, _⟩ => ⟨S1x1, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x1, .f32⟩
  | .local _ .vmem, ⟨19, _⟩ => ⟨S1024x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S576x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S832x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S32_S1x32 : S32.ShapeCasts S1x32
  shapeCasts_S1024_S1x1024 : S1024.ShapeCasts S1x1024
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  inb_S1024x64_S1024x64_0_0 : ∀ a, (![0, 0] : Fin 2 → Nat) a + S1024x64.size a ≤ S1024x64.size a
  h_S1024x64 : 0 < S1024x64.numel
  concatenates_S1024x256_S1024x64_S1024x256_S1024x576_d1 : Shape.Concatenates [S1024x256, S1024x64, S1024x256] S1024x576 1
  bitsLt_bf16_f32 : FTy.bits .bf16 < FTy.bits .f32
  inb_S576x32_S576x32_0_0 : ∀ a, (![0, 0] : Fin 2 → Nat) a + S576x32.size a ≤ S576x32.size a
  h_S576x32 : 0 < S576x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x1024_S32x1024_0_0 : ∀ a, (![0, 0] : Fin 2 → Nat) a + S32x1024.size a ≤ S32x1024.size a
  h_S32x1024 : 0 < S32x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  concatenates_S1024x576_S1024x256_S1024x832_d1 : Shape.Concatenates [S1024x576, S1024x256] S1024x832 1
  inb_S832x1_S832x1_0_0 : ∀ a, (![0, 0] : Fin 2 → Nat) a + S832x1.size a ≤ S832x1.size a
  h_S832x1 : 0 < S832x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x576_S576x32_S1024x32_1_0_0_1_n_n_wf : DotDims.WF S1024x576 S576x32 S1024x32 [1] [0] [0] [1] [] []
  dot_S1024x32_S32x1024_S1024x1024_1_0_0_1_n_n_wf : DotDims.WF S1024x32 S32x1024 S1024x1024 [1] [0] [0] [1] [] []
  dot_S1024x832_S832x1_S1024x1_1_0_0_1_n_n_wf : DotDims.WF S1024x832 S832x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S576x32.size a ≤ S576x32.size a
  hwx0_4 : ∀ i : grid0.Coords, EltTy.bits .f32 = 32 ∨ (Rect.block (s := S576x32) S576x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x1024.size a
  hwx0_6 : ∀ i : grid0.Coords, EltTy.bits .f32 = 32 ∨ (Rect.block (s := S32x1024) S32x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S832x1.size a ≤ S832x1.size a
  hwx0_8 : ∀ i : grid0.Coords, EltTy.bits .f32 = 32 ∨ (Rect.block (s := S832x1) S832x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S65536x256.size a
  hwx0_11 : ∀ i : grid0.Coords, EltTy.bits .f32 = 32 ∨ (Rect.block (s := S65536x256) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S65536x1.size a
  hwx0_12 : ∀ i : grid0.Coords, EltTy.bits .f32 = 32 ∨ (Rect.block (s := S65536x1) S1024x1.size (cc0_transform_12 i) (hinb0_12 i)).WholeWords (EltTy.packing .f32)

variable [Facts₀]

def dot_S1024x576_S576x32_S1024x32_1_0_0_1_n_n : DotDims S1024x576 S576x32 S1024x32 where
  lhsContracting := [1]
  rhsContracting := [0]
  lhsNonContracting := [0]
  rhsNonContracting := [1]
  lhsBatch := []
  rhsBatch := []
  wf := dot_S1024x576_S576x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x832_S832x1_S1024x1_1_0_0_1_n_n : DotDims S1024x832 S832x1 S1024x1 where
  lhsContracting := [1]
  rhsContracting := [0]
  lhsNonContracting := [0]
  rhsNonContracting := [1]
  lhsBatch := []
  rhsBatch := []
  wf := dot_S1024x832_S832x1_S1024x1_1_0_0_1_n_n_wf

abbrev win0_0 : Pipeline.Window sig grid0 :=
  Pipeline.Window.ofSpec (Memref.whole main_arg3) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S576x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S832x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_2) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x64 : Shape := ⟨2, ![65536, 64]⟩
abbrev S576x32 : Shape := ⟨2, ![576, 32]⟩
abbrev S32 : Shape := ⟨1, ![32]⟩
abbrev S32x1024 : Shape := ⟨2, ![32, 1024]⟩
abbrev S1024 : Shape := ⟨1, ![1024]⟩
abbrev S832x1 : Shape := ⟨2, ![832, 1]⟩
abbrev S1 : Shape := ⟨1, ![1]⟩
abbrev S65536x576 : Shape := ⟨2, ![65536, 576]⟩
abbrev S65536x32 : Shape := ⟨2, ![65536, 32]⟩
abbrev S1x32 : Shape := ⟨2, ![1, 32]⟩
abbrev S65536x1024 : Shape := ⟨2, ![65536, 1024]⟩
abbrev S1x1024 : Shape := ⟨2, ![1, 1024]⟩
abbrev S_ : Shape := ⟨0, ![]⟩
abbrev S65536x832 : Shape := ⟨2, ![65536, 832]⟩
abbrev S65536x1 : Shape := ⟨2, ![65536, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x64, .f32⟩
  | .hbm, ⟨3, _⟩ => ⟨S65536x256, .f32⟩
  | .hbm, ⟨4, _⟩ => ⟨S576x32, .f32⟩
  | .hbm, ⟨5, _⟩ => ⟨S32, .f32⟩
  | .hbm, ⟨6, _⟩ => ⟨S32x1024, .f32⟩
  | .hbm, ⟨7, _⟩ => ⟨S1024, .f32⟩
  | .hbm, ⟨8, _⟩ => ⟨S832x1, .f32⟩
  | .hbm, ⟨9, _⟩ => ⟨S1, .f32⟩
  | .hbm, ⟨10, _⟩ => ⟨S65536x576, .f32⟩
  | .hbm, ⟨11, _⟩ => ⟨S65536x32, .f32⟩
  | .hbm, ⟨12, _⟩ => ⟨S1x32, .f32⟩
  | .hbm, ⟨13, _⟩ => ⟨S65536x32, .f32⟩
  | .hbm, ⟨14, _⟩ => ⟨S65536x32, .f32⟩
  | .hbm, ⟨15, _⟩ => ⟨S65536x32, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x832, .f32⟩
  | .hbm, ⟨55, _⟩ => ⟨S65536x1, .f32⟩
  | .hbm, ⟨56, _⟩ => ⟨S1x1, .f32⟩
  | .hbm, ⟨57, _⟩ => ⟨S65536x1, .f32⟩
  | .hbm, ⟨58, _⟩ => ⟨S65536x1, .f32⟩
  | .hbm, ⟨59, _⟩ => ⟨S65536x1, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  concatenates_S65536x256_S65536x64_S65536x256_S65536x576_d1 : Shape.Concatenates [S65536x256, S65536x64, S65536x256] S65536x576 1
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  concatenates_S65536x576_S65536x256_S65536x832_d1 : Shape.Concatenates [S65536x576, S65536x256] S65536x832 1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x576_S576x32_S65536x32_1_0_0_1_n_n_wf : DotDims.WF S65536x576 S576x32 S65536x32 [1] [0] [0] [1] [] []
  dot_S65536x32_S32x1024_S65536x1024_1_0_0_1_n_n_wf : DotDims.WF S65536x32 S32x1024 S65536x1024 [1] [0] [0] [1] [] []
  dot_S65536x832_S832x1_S65536x1_1_0_0_1_n_n_wf : DotDims.WF S65536x832 S832x1 S65536x1 [1] [0] [0] [1] [] []

variable [Facts₀]

def dot_S65536x576_S576x32_S65536x32_1_0_0_1_n_n : DotDims S65536x576 S576x32 S65536x32 where
  lhsContracting := [1]
  rhsContracting := [0]
  lhsNonContracting := [0]
  rhsNonContracting := [1]
  lhsBatch := []
  rhsBatch := []
  wf := dot_S65536x576_S576x32_S65536x32_1_0_0_1_n_n_wf
def dot_S65536x32_S32x1024_S65536x1024_1_0_0_1_n_n : DotDims S65536x32 S32x1024 S65536x1024 where
  lhsContracting := [1]
  rhsContracting := [0]
  lhsNonContracting := [0]
  rhsNonContracting := [1]
  lhsBatch := []
  rhsBatch := []
  wf := dot_S65536x32_S32x1024_S65536x1024_1_0_0_1_n_n_wf
def dot_S65536x832_S832x1_S65536x1_1_0_0_1_n_n : DotDims S65536x832 S832x1 S65536x1 where
  lhsContracting := [1]
  rhsContracting := [0]
  lhsNonContracting := [0]
  rhsNonContracting := [1]
  lhsBatch := []
  rhsBatch := []
  wf := dot_S65536x832_S832x1_S65536x1_1_0_0_1_n_n_wf

class Facts : Prop extends Facts₀ where

variable [Facts]
-- ==== Proof.Spec.lean ====
import proofs.«140324_j45457933860875_1_alg».proof.Proof.Gen.ReferenceIdeal
import Idealize.ShloMosaic.PureOps.Ideal

noncomputable section

/-! # The cell as three whole-array functions

One step of a fully connected LSTM cell on a batch of 65536 rows, on the extended reals:

* `x = [dynamics | action | prev_h]`, 576 columns;
* `h₁ = tanh (x · W₁ + b₁)`, 32 columns;
* `g = h₁ · W₂ + b₂`, 1024 columns, read as four gates of 256 columns: `i`, `f`, `ĉ`, `o`;
* `next_c = σ(f) · prev_c + σ(i) · tanh ĉ`;
* `next_h = σ(o) · tanh next_c`;
* `reward = tanh ([x | next_h] · W_r + b_r)`, one column,

with `σ v = 1 / (1 + e^(−v))`. Each is one function of the whole argument arrays; every step works row by row, which is
what lets a computation on a block of rows be read as the block of these functions. -/

namespace Cert.Lstm

open Idealize.ShloMosaic Cert.ReferenceIdeal Cert.ReferenceIdeal.Gen

/-- `[dynamics | action | prev_h]`. -/
def xcat (dyn : FVec Ideal S65536x256 .f32) (act : FVec Ideal S65536x64 .f32) (h : FVec Ideal S65536x256 .f32) :
    FVec Ideal S65536x576 .f32 :=
  concatenate S65536x576 1 [⟨S65536x256, dyn⟩, ⟨S65536x64, act⟩, ⟨S65536x256, h⟩] concatenates_S65536x256_S65536x64_S65536x256_S65536x576_d1

/-- The first layer: `tanh (x · W₁ + b₁)`, the bias row laid under every row. -/
def hidden (x : FVec Ideal S65536x576 .f32) (W1 : FVec Ideal S576x32 .f32) (b1 : FVec Ideal S32 .f32) : FVec Ideal S65536x32 .f32 :=
  Host.tanh (addf (Host.dotGeneral dot_S65536x576_S576x32_S65536x32_1_0_0_1_n_n none x W1)
    (broadcastInDim S65536x32 ![0, 1] bcast_S1x32_S65536x32_0_1 (broadcastInDim S1x32 ![1] bcast_S32_S1x32_1 b1)))

/-- The second layer, no activation: the four gates' pre-activations side by side. -/
def gates (h1 : FVec Ideal S65536x32 .f32) (W2 : FVec Ideal S32x1024 .f32) (b2 : FVec Ideal S1024 .f32) : FVec Ideal S65536x1024 .f32 :=
  addf (Host.dotGeneral dot_S65536x32_S32x1024_S65536x1024_1_0_0_1_n_n none h1 W2)
    (broadcastInDim S65536x1024 ![0, 1] bcast_S1x1024_S65536x1024_0_1 (broadcastInDim S1x1024 ![1] bcast_S1024_S1x1024_1 b2))

/-- `σ v = 1 / (1 + e^(−v))`, entry by entry. -/
def sigm (v : FVec Ideal S65536x256 .f32) : FVec Ideal S65536x256 .f32 :=
  Host.divf (broadcastInDim S65536x256 ![] bcast_S_S65536x256 (constant S_ .f32 0x3F800000#32))
    (addf (broadcastInDim S65536x256 ![] bcast_S_S65536x256 (constant S_ .f32 0x3F800000#32)) (Host.exp (Host.negf v)))

/-- `next_c = σ(f) · prev_c + σ(i) · tanh ĉ`: gate `f` is columns 256…511 of `g`, `i` columns 0…255, `ĉ` columns 512…767. -/
def nextC (g : FVec Ideal S65536x1024 .f32) (pc : FVec Ideal S65536x256 .f32) : FVec Ideal S65536x256 .f32 :=
  addf (mulf (sigm (extractStridedSlice S65536x256 ![0, 256] g slices_S65536x1024_S65536x256_0_256)) pc)
    (mulf (sigm (extractStridedSlice S65536x256 ![0, 0] g slices_S65536x1024_S65536x256_0_0))
      (Host.tanh (extractStridedSlice S65536x256 ![0, 512] g slices_S65536x1024_S65536x256_0_512)))

/-- `next_h = σ(o) · tanh next_c`: gate `o` is columns 768…1023 of `g`. -/
def nextH (g : FVec Ideal S65536x1024 .f32) (pc : FVec Ideal S65536x256 .f32) : FVec Ideal S65536x256 .f32 :=
  mulf (sigm (extractStridedSlice S65536x256 ![0, 768] g slices_S65536x1024_S65536x256_0_768)) (Host.tanh (nextC g pc))

/-- `reward = tanh ([x | next_h] · W_r + b_r)`. -/
def reward (x : FVec Ideal S65536x576 .f32) (nh : FVec Ideal S65536x256 .f32) (Wr : FVec Ideal S832x1 .f32) (br : FVec Ideal S1 .f32) :
    FVec Ideal S65536x1 .f32 :=
  Host.tanh (addf (Host.dotGeneral dot_S65536x832_S832x1_S65536x1_1_0_0_1_n_n none
      (concatenate S65536x832 1 [⟨S65536x576, x⟩, ⟨S65536x256, nh⟩] concatenates_S65536x576_S65536x256_S65536x832_d1) Wr)
    (broadcastInDim S65536x1 ![0, 1] bcast_S1x1_S65536x1_0_1 (broadcastInDim S1x1 ![1] bcast_S1_S1x1_1 br)))

/-- The gates' pre-activations from the ten arguments. -/
def gatesOf (ph : FVec Ideal S65536x256 .f32) (act : FVec Ideal S65536x64 .f32) (dyn : FVec Ideal S65536x256 .f32)
    (W1 : FVec Ideal S576x32 .f32) (b1 : FVec Ideal S32 .f32) (W2 : FVec Ideal S32x1024 .f32) (b2 : FVec Ideal S1024 .f32) :
    FVec Ideal S65536x1024 .f32 :=
  gates (hidden (xcat dyn act ph) W1 b1) W2 b2

end Cert.Lstm

end
-- ==== Proof.RefSpec.lean ====
import proofs.«140324_j45457933860875_1_alg».proof.Proof.Spec
import proofs.«140324_j45457933860875_1_alg».proof.Proof.Gen.ReferenceIdeal.Run

noncomputable section

/-! # The reference computes the three functions

The reference program's run ends with its three results at the composed term of its host operations. Spelled out, that
term is the cell's three functions of the argument arrays: the sigmoid appears in the program as
`1 / (1 + e^(−v))` with the unit word for `1`, which is how `sigm` is defined. -/

namespace Cert.Lstm

open Idealize.ShloMosaic Idealize.ShloMosaic.TcCoe Idealize.SL.Sem Cert.ReferenceIdeal

variable (m : (ℓ : Loc nD τ sig) → Buf (Elt Ideal) ℓ) (c : Dev nD)

/-- The gates' pre-activations of the reference's arguments. -/
abbrev refGates : FVec Ideal S65536x1024 .f32 :=
  gatesOf (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The first result is `next_h`. -/
theorem ref_nextH : Cert.ReferenceIdeal.Value.res_main_v37 (F := Ideal) m c = nextH (refGates m c) (m ((c.tc : Thread nD τ).loc main_arg1)) := rfl

/-- The third result is the reward. -/
theorem ref_reward : Cert.ReferenceIdeal.Value.res_main_v43 (F := Ideal) m c
    = reward (xcat (m ((c.tc : Thread nD τ).loc main_arg3)) (m ((c.tc : Thread nD τ).loc main_arg2)) (m ((c.tc : Thread nD τ).loc main_arg0))) (nextH (refGates m c) (m ((c.tc : Thread nD τ).loc main_arg1))) (m ((c.tc : Thread nD τ).loc main_arg8)) (m ((c.tc : Thread nD τ).loc main_arg9)) := rfl

/-- The reference's run with its three results named by the cell's functions. -/
theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = nextH (refGates m c) (m ((c.tc : Thread nD τ).loc main_arg1))
      ∧ r.2.mem ((c.tc : Thread nD τ).loc main_v35) = nextC (refGates m c) (m ((c.tc : Thread nD τ).loc main_arg1))
      ∧ r.2.mem ((c.tc : Thread nD τ).loc main_v43)
          = reward (xcat (m ((c.tc : Thread nD τ).loc main_arg3)) (m ((c.tc : Thread nD τ).loc main_arg2)) (m ((c.tc : Thread nD τ).loc main_arg0))) (nextH (refGates m c) (m ((c.tc : Thread nD τ).loc main_arg1))) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (ref_nextH m c), (h c).2.1, (h c).2.2.1.trans (ref_reward m c), (h c).2.2.2⟩)
    (Cert.ReferenceIdeal.Value.run (F := Ideal) m ρ)

end Cert.Lstm

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«140324_j45457933860875_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibConcat3Rows.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value

noncomputable section

/-! # Row blocks: three arrays side by side

An array of `M = T · R` rows is cut into `T` blocks of `R` rows. Laying three arrays side by side (a concatenation
along the columns) works row by row, so it commutes with taking a block of rows: the block of the triple is the triple
of the blocks. Column `q` of the result lies in the first array when `q < N₁`, in the second at column `q − N₁` when
`q < N₁ + N₂`, and otherwise in the third at column `q − (N₁ + N₂)`; the row is the same in all of them. -/

namespace Cert.RowBlock

open Idealize.ShloMosaic Idealize.ShloMosaic.ValueIdx Idealize.ShloMosaic.Layout

variable {R M T : ℕ} {α : Type}

/-- Three arrays side by side: the block of rows of the triple is the triple of the blocks of rows. -/
theorem concat3_rows {N₁ N₂ N₃ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩] ⟨2, ![R, N]⟩ 1)
    (hc' : Shape.Concatenates [(⟨2, ![M, N₁]⟩ : Shape), ⟨2, ![M, N₂]⟩, ⟨2, ![M, N₃]⟩] ⟨2, ![M, N]⟩ 1)
    (A : (⟨2, ![M, N₁]⟩ : Shape).Idx → α) (B : (⟨2, ![M, N₂]⟩ : Shape).Idx → α) (C : (⟨2, ![M, N₃]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc
      = block ⟨2, ![R, N]⟩ ⟨2, ![M, N]⟩ 0 T t (concatenate ⟨2, ![M, N]⟩ 1 [⟨⟨2, ![M, N₁]⟩, A⟩, ⟨⟨2, ![M, N₂]⟩, B⟩, ⟨⟨2, ![M, N₃]⟩, C⟩] hc') hN := by
  funext y
  obtain ⟨p, q, rfl⟩ : ∃ (p : Fin R) (q : Fin N), y = ix2 p q := ⟨y 0, y 1, eq_ix2 y⟩
  have hsum : N₁ + (N₂ + (N₃ + (0))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc (ix2 p q) 0 (by show 0 < 3; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩] hc' (hN.idx t (ix2 p q)) 0 (by show 0 < 3; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc (ix2 p q) 1 (by show 1 < 3; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩] hc' (hN.idx t (ix2 p q)) 1 (by show 1 < 3; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc (ix2 p q) 2 (by show 2 < 3; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩] hc' (hN.idx t (ix2 p q)) 2 (by show 2 < 3; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb

end Cert.RowBlock

end
-- ==== Proof.KernelRows.lean ====
import proofs.«140324_j45457933860875_1_alg».proof.Proof.Spec
import proofs.«140324_j45457933860875_1_alg».proof.Proof.LibRowBlock
import proofs.«140324_j45457933860875_1_alg».proof.Proof.LibConcat3Rows
import proofs.«140324_j45457933860875_1_alg».proof.Proof.Gen.KernelIdeal.Skeleton

noncomputable section

/-! # The kernel's arithmetic on a block of rows

The batch of 65536 rows is cut into 64 blocks of 1024 rows. At block `t` the kernel body reads rows
`1024·t … 1024·t + 1023` of `dynamics`, `action`, `prev_h` and `prev_c`, and the weights whole. Every step of the cell
works row by row — a product with a weight matrix shared by all rows, a bias row, the gates' column slices, the
sigmoid and `tanh`, the two concatenations along the columns — so what the body computes from those blocks is the same
block of rows of the cell's whole-array functions. Rounding the products' operands to a narrower format changes
nothing on the extended reals, and a matrix-unit product into the zero accumulator is the plain product. -/

namespace Cert.Lstm.Rows

open Idealize.ShloMosaic Idealize.ShloMosaic.Layout Cert.KernelIdeal Cert.KernelIdeal.Gen Cert.RowBlock

theorem t256 : Tiles S1024x256 S65536x256 0 64 := by decide
theorem t64 : Tiles S1024x64 S65536x64 0 64 := by decide
theorem t576 : Tiles S1024x576 Cert.ReferenceIdeal.S65536x576 0 64 := by decide
theorem t32 : Tiles S1024x32 Cert.ReferenceIdeal.S65536x32 0 64 := by decide
theorem t1024 : Tiles S1024x1024 Cert.ReferenceIdeal.S65536x1024 0 64 := by decide
theorem t832 : Tiles S1024x832 Cert.ReferenceIdeal.S65536x832 0 64 := by decide
theorem t1 : Tiles S1024x1 S65536x1 0 64 := by decide

variable (t : Fin 64)
variable (dyn ph pc : FVec Ideal S65536x256 .f32) (act : FVec Ideal S65536x64 .f32)
variable (W1 : FVec Ideal S576x32 .f32) (b1 : FVec Ideal S32 .f32) (W2 : FVec Ideal S32x1024 .f32) (b2 : FVec Ideal S1024 .f32)
variable (Wr : FVec Ideal S832x1 .f32) (br : FVec Ideal S1 .f32)

/-- The block of rows of `[dynamics | action | prev_h]`. -/
theorem pay2_rows :
    k0_pay2 (F := Ideal) (block S1024x256 S65536x256 0 64 t dyn t256) (block S1024x64 S65536x64 0 64 t act t64) (block S1024x256 S65536x256 0 64 t ph t256)
      = block S1024x576 Cert.ReferenceIdeal.S65536x576 0 64 t (Cert.Lstm.xcat dyn act ph) t576 :=
  concat3_rows (R := 1024) (M := 65536) (T := 64) t256 t64 t256 t576 t concatenates_S1024x256_S1024x64_S1024x256_S1024x576_d1
    Cert.ReferenceIdeal.Gen.concatenates_S65536x256_S65536x64_S65536x256_S65536x576_d1 dyn act ph

/-- The block of rows of the gates' pre-activations: two dense layers, each a product with a shared matrix plus a bias
    row, `tanh` between them. The bias rows reach the body as `[1, n]` arrays, the one-axis arguments recast. -/
theorem pay3_rows :
    k0_pay3 (F := Ideal) (block S1024x256 S65536x256 0 64 t dyn t256) (block S1024x64 S65536x64 0 64 t act t64) (block S1024x256 S65536x256 0 64 t ph t256)
        W1 (shapeCast S1x32 b1 shapeCasts_S32_S1x32) W2 (shapeCast S1x1024 b2 shapeCasts_S1024_S1x1024)
      = block S1024x1024 Cert.ReferenceIdeal.S65536x1024 0 64 t (Cert.Lstm.gatesOf ph act dyn W1 b1 W2 b2) t1024 := by
  unfold k0_pay3
  dsimp only
  rw [pay2_rows, shapeCast_self, shapeCast_self]
  rw [dot_rows_trunc (R := 1024) (M := 65536) (T := 64) bitsLt_bf16_f32 bitsLt_bf16_f32 dot_S1024x576_S576x32_S1024x32_1_0_0_1_n_n rfl
      Cert.ReferenceIdeal.dot_S65536x576_S576x32_S65536x32_1_0_0_1_n_n rfl t576 t32 none none t (Cert.Lstm.xcat dyn act ph) W1]
  rw [bias_rows (R := 1024) (M := 65536) (T := 64) t32 t shapeCasts_S32_S1x32 broadcasts_S1x32_S1024x32 Cert.ReferenceIdeal.Gen.bcast_S32_S1x32_1 Cert.ReferenceIdeal.Gen.bcast_S1x32_S65536x32_0_1 b1]
  rw [addf_rows, tanh_rows]
  rw [dot_rows_trunc (R := 1024) (M := 65536) (T := 64) bitsLt_bf16_f32 bitsLt_bf16_f32 dot_S1024x32_S32x1024_S1024x1024_1_0_0_1_n_n rfl
      Cert.ReferenceIdeal.dot_S65536x32_S32x1024_S65536x1024_1_0_0_1_n_n rfl t32 t1024 none none t _ W2]
  rw [bias_rows (R := 1024) (M := 65536) (T := 64) t1024 t shapeCasts_S1024_S1x1024 broadcasts_S1x1024_S1024x1024 Cert.ReferenceIdeal.Gen.bcast_S1024_S1x1024_1 Cert.ReferenceIdeal.Gen.bcast_S1x1024_S65536x1024_0_1 b2]
  rw [addf_rows]
  rfl

/-- The block of rows of `next_c = σ(f) · prev_c + σ(i) · tanh ĉ`. -/
theorem pay4_rows :
    k0_pay4 (F := Ideal) (block S1024x256 S65536x256 0 64 t dyn t256) (block S1024x64 S65536x64 0 64 t act t64) (block S1024x256 S65536x256 0 64 t ph t256)
        W1 (shapeCast S1x32 b1 shapeCasts_S32_S1x32) W2 (shapeCast S1x1024 b2 shapeCasts_S1024_S1x1024) (block S1024x256 S65536x256 0 64 t pc t256)
      = block S1024x256 S65536x256 0 64 t (Cert.Lstm.nextC (Cert.Lstm.gatesOf ph act dyn W1 b1 W2 b2) pc) t256 := by
  unfold k0_pay4
  dsimp only
  rw [pay3_rows]
  rw [slice_rows (R := 1024) (M := 65536) (T := 64) 0 t1024 t256 t slices_S1024x1024_o0_0_S1024x256 Cert.ReferenceIdeal.Gen.slices_S65536x1024_S65536x256_0_0 (Cert.Lstm.gatesOf ph act dyn W1 b1 W2 b2), slice_rows (R := 1024) (M := 65536) (T := 64) 256 t1024 t256 t slices_S1024x1024_o0_256_S1024x256 Cert.ReferenceIdeal.Gen.slices_S65536x1024_S65536x256_0_256 (Cert.Lstm.gatesOf ph act dyn W1 b1 W2 b2), slice_rows (R := 1024) (M := 65536) (T := 64) 512 t1024 t256 t slices_S1024x1024_o0_512_S1024x256 Cert.ReferenceIdeal.Gen.slices_S65536x1024_S65536x256_0_512 (Cert.Lstm.gatesOf ph act dyn W1 b1 W2 b2)]
  rw [logistic_rows (R := 1024) (M := 65536) (T := 64) t256 t _ Cert.ReferenceIdeal.Gen.bcast_S_S65536x256,
    logistic_rows (R := 1024) (M := 65536) (T := 64) t256 t _ Cert.ReferenceIdeal.Gen.bcast_S_S65536x256, tanh_rows, mulf_rows, mulf_rows, addf_rows]
  rfl

/-- The block of rows of `next_h = σ(o) · tanh next_c`. -/
theorem pay5_rows :
    k0_pay5 (F := Ideal) (block S1024x256 S65536x256 0 64 t dyn t256) (block S1024x64 S65536x64 0 64 t act t64) (block S1024x256 S65536x256 0 64 t ph t256)
        W1 (shapeCast S1x32 b1 shapeCasts_S32_S1x32) W2 (shapeCast S1x1024 b2 shapeCasts_S1024_S1x1024) (block S1024x256 S65536x256 0 64 t pc t256)
      = block S1024x256 S65536x256 0 64 t (Cert.Lstm.nextH (Cert.Lstm.gatesOf ph act dyn W1 b1 W2 b2) pc) t256 := by
  unfold k0_pay5
  dsimp only
  rw [pay4_rows, pay3_rows]
  rw [slice_rows (R := 1024) (M := 65536) (T := 64) 768 t1024 t256 t slices_S1024x1024_o0_768_S1024x256 Cert.ReferenceIdeal.Gen.slices_S65536x1024_S65536x256_0_768 (Cert.Lstm.gatesOf ph act dyn W1 b1 W2 b2)]
  rw [logistic_rows (R := 1024) (M := 65536) (T := 64) t256 t _ Cert.ReferenceIdeal.Gen.bcast_S_S65536x256, tanh_rows, mulf_rows]
  rfl

/-- The block of rows of `reward = tanh ([x | next_h] · W_r + b_r)`. -/
theorem pay1_rows :
    k0_pay1 (F := Ideal) (k0_pay6 Wr) (k0_pay7 (block S1024x256 S65536x256 0 64 t dyn t256) (block S1024x64 S65536x64 0 64 t act t64) (block S1024x256 S65536x256 0 64 t ph t256)
        W1 (shapeCast S1x32 b1 shapeCasts_S32_S1x32) W2 (shapeCast S1x1024 b2 shapeCasts_S1024_S1x1024) (block S1024x256 S65536x256 0 64 t pc t256)) (shapeCast S1x1 br shapeCasts_S1_S1x1)
      = block S1024x1 S65536x1 0 64 t (Cert.Lstm.reward (Cert.Lstm.xcat dyn act ph) (Cert.Lstm.nextH (Cert.Lstm.gatesOf ph act dyn W1 b1 W2 b2) pc) Wr br) t1 := by
  unfold k0_pay1 k0_pay6 k0_pay7
  dsimp only
  rw [pay2_rows, pay5_rows, shapeCast_self]
  rw [concat2_rows (R := 1024) (M := 65536) (T := 64) t576 t256 t832 t concatenates_S1024x576_S1024x256_S1024x832_d1
      Cert.ReferenceIdeal.Gen.concatenates_S65536x576_S65536x256_S65536x832_d1 (Cert.Lstm.xcat dyn act ph) (Cert.Lstm.nextH (Cert.Lstm.gatesOf ph act dyn W1 b1 W2 b2) pc)]
  rw [dot_rows_trunc (R := 1024) (M := 65536) (T := 64) bitsLt_bf16_f32 bitsLt_bf16_f32 dot_S1024x832_S832x1_S1024x1_1_0_0_1_n_n rfl
      Cert.ReferenceIdeal.dot_S65536x832_S832x1_S65536x1_1_0_0_1_n_n rfl t832 t1 none none t _ Wr]
  rw [bias_rows (R := 1024) (M := 65536) (T := 64) t1 t shapeCasts_S1_S1x1 broadcasts_S1x1_S1024x1 Cert.ReferenceIdeal.Gen.bcast_S1_S1x1_1 Cert.ReferenceIdeal.Gen.bcast_S1x1_S65536x1_0_1 br]
  rw [addf_rows, tanh_rows]
  rfl

end Cert.Lstm.Rows

end
-- ==== Proof.KernelArrays.lean ====
import proofs.«140324_j45457933860875_1_alg».proof.Proof.KernelRows
import proofs.«140324_j45457933860875_1_alg».proof.Proof.Gen.KernelIdeal.Value
import Idealize.ShloMosaic.Lib.StableHlo.Run

noncomputable section

/-! # From the blocks to the arrays

The three outputs are written block by block: grid point `t` of 64 stages rows `1024·t … 1024·t + 1023` of the four
batch inputs and the weights whole, runs the body, and writes rows `1024·t …` of each output back. What it writes is
that block of rows of the cell's function of the whole argument arrays; the 64 blocks are disjoint and cover every
row (row `r` lies in block `r / 1024`), so after the run each output array is the cell's function. -/

namespace Cert.Lstm.Arr

open Cert.KernelIdeal Cert.KernelIdeal.Gen Idealize.ShloMosaic Idealize.ShloMosaic.TcCoe Idealize.SL.Sem Idealize.ShloMosaic.Layout
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the batch windows and the outputs are at block `(t, 0)`, the weights at `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-- Input window 0's block at point `t` is rows `1024·t …` of its array. -/
theorem iblk0_eq (c : Dev nD) (t : Fin cfg0.N) :
    (iblk m c 0 t : Vec Ideal S1024x256 .f32) = block S1024x256 S65536x256 0 64 (Fin.cast N_0 t) (V m c main_arg3) Rows.t256 := by
  obtain ⟨f0, f1, f2, f3, f4, f5, f6, f7, f8, f9, f10, f11, f12, f13, f14, f15, f16, f17, f18, f19, f20, f21, f22, f23, f24, f25⟩ := idx_facts t
  funext y
  show V m c main_arg3 (((cfg0.win 0).blk t).view.emb y) = V m c main_arg3 (Rows.t256.idx (Fin.cast N_0 t) y)
  refine congrArg _ ?_
  funext a; apply Fin.ext
  match a with
  | ⟨0, _⟩ => show win0_0.index t (0 : Fin 2) * 1024 + 1 * (y 0).val = t.val * 1024 + (y 0).val; omega
  | ⟨1, _⟩ => show win0_0.index t (1 : Fin 2) * 256 + 1 * (y 1).val = (y 1).val; omega

/-- Input window 1's block at point `t` is rows `1024·t …` of its array. -/
theorem iblk1_eq (c : Dev nD) (t : Fin cfg0.N) :
    (iblk m c 1 t : Vec Ideal S1024x64 .f32) = block S1024x64 S65536x64 0 64 (Fin.cast N_0 t) (V m c main_arg2) Rows.t64 := by
  obtain ⟨f0, f1, f2, f3, f4, f5, f6, f7, f8, f9, f10, f11, f12, f13, f14, f15, f16, f17, f18, f19, f20, f21, f22, f23, f24, f25⟩ := idx_facts t
  funext y
  show V m c main_arg2 (((cfg0.win 1).blk t).view.emb y) = V m c main_arg2 (Rows.t64.idx (Fin.cast N_0 t) y)
  refine congrArg _ ?_
  funext a; apply Fin.ext
  match a with
  | ⟨0, _⟩ => show win0_1.index t (0 : Fin 2) * 1024 + 1 * (y 0).val = t.val * 1024 + (y 0).val; omega
  | ⟨1, _⟩ => show win0_1.index t (1 : Fin 2) * 64 + 1 * (y 1).val = (y 1).val; omega

/-- Input window 2's block at point `t` is rows `1024·t …` of its array. -/
theorem iblk2_eq (c : Dev nD) (t : Fin cfg0.N) :
    (iblk m c 2 t : Vec Ideal S1024x256 .f32) = block S1024x256 S65536x256 0 64 (Fin.cast N_0 t) (V m c main_arg0) Rows.t256 := by
  obtain ⟨f0, f1, f2, f3, f4, f5, f6, f7, f8, f9, f10, f11, f12, f13, f14, f15, f16, f17, f18, f19, f20, f21, f22, f23, f24, f25⟩ := idx_facts t
  funext y
  show V m c main_arg0 (((cfg0.win 2).blk t).view.emb y) = V m c main_arg0 (Rows.t256.idx (Fin.cast N_0 t) y)
  refine congrArg _ ?_
  funext a; apply Fin.ext
  match a with
  | ⟨0, _⟩ => show win0_2.index t (0 : Fin 2) * 1024 + 1 * (y 0).val = t.val * 1024 + (y 0).val; omega
  | ⟨1, _⟩ => show win0_2.index t (1 : Fin 2) * 256 + 1 * (y 1).val = (y 1).val; omega

/-- Input window 3's block at point `t` is rows `1024·t …` of its array. -/
theorem iblk3_eq (c : Dev nD) (t : Fin cfg0.N) :
    (iblk m c 3 t : Vec Ideal S1024x256 .f32) = block S1024x256 S65536x256 0 64 (Fin.cast N_0 t) (V m c main_arg1) Rows.t256 := by
  obtain ⟨f0, f1, f2, f3, f4, f5, f6, f7, f8, f9, f10, f11, f12, f13, f14, f15, f16, f17, f18, f19, f20, f21, f22, f23, f24, f25⟩ := idx_facts t
  funext y
  show V m c main_arg1 (((cfg0.win 3).blk t).view.emb y) = V m c main_arg1 (Rows.t256.idx (Fin.cast N_0 t) y)
  refine congrArg _ ?_
  funext a; apply Fin.ext
  match a with
  | ⟨0, _⟩ => show win0_3.index t (0 : Fin 2) * 1024 + 1 * (y 0).val = t.val * 1024 + (y 0).val; omega
  | ⟨1, _⟩ => show win0_3.index t (1 : Fin 2) * 256 + 1 * (y 1).val = (y 1).val; omega

/-- Input window 4 stages its whole array at every point. -/
theorem iblk4_eq (c : Dev nD) (t : Fin cfg0.N) : (iblk m c 4 t : Vec Ideal S576x32 .f32) = V m c main_arg4 := by
  obtain ⟨f0, f1, f2, f3, f4, f5, f6, f7, f8, f9, f10, f11, f12, f13, f14, f15, f16, f17, f18, f19, f20, f21, f22, f23, f24, f25⟩ := idx_facts t
  funext y
  show V m c main_arg4 (((cfg0.win 4).blk t).view.emb y) = V m c main_arg4 y
  refine congrArg _ ?_
  funext a; apply Fin.ext
  match a with
  | ⟨0, _⟩ => show win0_4.index t (0 : Fin 2) * 576 + 1 * (y 0).val = (y 0).val; omega
  | ⟨1, _⟩ => show win0_4.index t (1 : Fin 2) * 32 + 1 * (y 1).val = (y 1).val; omega

/-- Input window 5 stages its whole array at every point. -/
theorem iblk5_eq (c : Dev nD) (t : Fin cfg0.N) : (iblk m c 5 t : Vec Ideal S1x32 .f32) = V m c main_v0 := by
  obtain ⟨f0, f1, f2, f3, f4, f5, f6, f7, f8, f9, f10, f11, f12, f13, f14, f15, f16, f17, f18, f19, f20, f21, f22, f23, f24, f25⟩ := idx_facts t
  funext y
  show V m c main_v0 (((cfg0.win 5).blk t).view.emb y) = V m c main_v0 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- Input window 6 stages its whole array at every point. -/
theorem iblk6_eq (c : Dev nD) (t : Fin cfg0.N) : (iblk m c 6 t : Vec Ideal S32x1024 .f32) = V m c main_arg6 := by
  obtain ⟨f0, f1, f2, f3, f4, f5, f6, f7, f8, f9, f10, f11, f12, f13, f14, f15, f16, f17, f18, f19, f20, f21, f22, f23, f24, f25⟩ := idx_facts t
  funext y
  show V m c main_arg6 (((cfg0.win 6).blk t).view.emb y) = V m c main_arg6 y
  refine congrArg _ ?_
  funext a; apply Fin.ext
  match a with
  | ⟨0, _⟩ => show win0_6.index t (0 : Fin 2) * 32 + 1 * (y 0).val = (y 0).val; omega
  | ⟨1, _⟩ => show win0_6.index t (1 : Fin 2) * 1024 + 1 * (y 1).val = (y 1).val; omega

/-- Input window 7 stages its whole array at every point. -/
theorem iblk7_eq (c : Dev nD) (t : Fin cfg0.N) : (iblk m c 7 t : Vec Ideal S1x1024 .f32) = V m c main_v1 := by
  obtain ⟨f0, f1, f2, f3, f4, f5, f6, f7, f8, f9, f10, f11, f12, f13, f14, f15, f16, f17, f18, f19, f20, f21, f22, f23, f24, f25⟩ := idx_facts t
  funext y
  show V m c main_v1 (((cfg0.win 7).blk t).view.emb y) = V m c main_v1 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- Input window 8 stages its whole array at every point. -/
theorem iblk8_eq (c : Dev nD) (t : Fin cfg0.N) : (iblk m c 8 t : Vec Ideal S832x1 .f32) = V m c main_arg8 := by
  obtain ⟨f0, f1, f2, f3, f4, f5, f6, f7, f8, f9, f10, f11, f12, f13, f14, f15, f16, f17, f18, f19, f20, f21, f22, f23, f24, f25⟩ := idx_facts t
  funext y
  show V m c main_arg8 (((cfg0.win 8).blk t).view.emb y) = V m c main_arg8 y
  refine congrArg _ ?_
  funext a; apply Fin.ext
  match a with
  | ⟨0, _⟩ => show win0_8.index t (0 : Fin 2) * 832 + 1 * (y 0).val = (y 0).val; omega
  | ⟨1, _⟩ => show win0_8.index t (1 : Fin 2) * 1 + 1 * (y 1).val = (y 1).val; omega

/-- Input window 9 stages its whole array at every point. -/
theorem iblk9_eq (c : Dev nD) (t : Fin cfg0.N) : (iblk m c 9 t : Vec Ideal S1x1 .f32) = V m c main_v2 := by
  obtain ⟨f0, f1, f2, f3, f4, f5, f6, f7, f8, f9, f10, f11, f12, f13, f14, f15, f16, f17, f18, f19, f20, f21, f22, f23, f24, f25⟩ := idx_facts t
  funext y
  show V m c main_v2 (((cfg0.win 9).blk t).view.emb y) = V m c main_v2 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

/-- The bias rows reach the region as `[1, n]` arrays: the one-axis arguments recast by the host. -/
theorem v0_eq (c : Dev nD) : (V m c main_v0 : S1x32.Idx → EReal) = shapeCast S1x32 (m ((c : Thread nD τ).loc main_arg5)) shapeCasts_S32_S1x32 := by
  dsimp only [Gen.V, Gen.hostOps0]; after_results; rfl
theorem v1_eq (c : Dev nD) : (V m c main_v1 : S1x1024.Idx → EReal) = shapeCast S1x1024 (m ((c : Thread nD τ).loc main_arg7)) shapeCasts_S1024_S1x1024 := by
  dsimp only [Gen.V, Gen.hostOps0]; after_results; rfl
theorem v2_eq (c : Dev nD) : (V m c main_v2 : S1x1.Idx → EReal) = shapeCast S1x1 (m ((c : Thread nD τ).loc main_arg9)) shapeCasts_S1_S1x1 := by
  dsimp only [Gen.V, Gen.hostOps0]; after_results; rfl

/-- What point `t` writes back to output window 10 is rows `1024·t …` of the cell's function of the arguments. -/
theorem flushed10_eq (c : Dev nD) (t : Fin cfg0.N) :
    (dats m 0 c).flushed 10 t = ((cfg0.win 10).blk t).view.read (Elt Ideal) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) := by
  rw [Cert.KernelIdeal.Value.flushed10]
  unfold out0_10
  rw [View.canon_unit_zero hz]
  simp only [View.ld_unit_zero (S := S1024x256) hz, View.ld_unit_zero (S := S1024x64) hz, View.ld_unit_zero (S := S576x32) hz, View.ld_unit_zero (S := S1x32) hz, View.ld_unit_zero (S := S32x1024) hz, View.ld_unit_zero (S := S1x1024) hz, View.ld_unit_zero (S := S832x1) hz, View.ld_unit_zero (S := S1x1) hz]
  rw [iblk0_eq, iblk1_eq, iblk2_eq, iblk3_eq, iblk4_eq, iblk5_eq, iblk6_eq, iblk7_eq, v0_eq, v1_eq,
    V_main_arg0, V_main_arg1, V_main_arg2, V_main_arg3, V_main_arg4, V_main_arg6]
  rw [Rows.pay5_rows]
  obtain ⟨f0, f1, f2, f3, f4, f5, f6, f7, f8, f9, f10, f11, f12, f13, f14, f15, f16, f17, f18, f19, f20, f21, f22, f23, f24, f25⟩ := idx_facts t
  funext j
  show (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (Rows.t256.idx (Fin.cast N_0 t) j) = (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (((cfg0.win 10).blk t).view.emb j)
  refine congrArg _ ?_
  funext a; apply Fin.ext
  match a with
  | ⟨0, _⟩ => show t.val * 1024 + (j 0).val = win0_10.index t (0 : Fin 2) * 1024 + 1 * (j 0).val; omega
  | ⟨1, _⟩ => show (j 1).val = win0_10.index t (1 : Fin 2) * 256 + 1 * (j 1).val; omega

/-- An index of the array is in point `t`'s block iff each coordinate is in the block's range on its axis. -/
theorem mem_blk10 (t : Fin cfg0.N) (i : S65536x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v3_0).slice (win0_10.rect t)).set ↔ _
  rw [View.set_slice_whole, Rect.mem_set_unit]
  exact Iff.rfl

/-- Row `r` lies in the block of point `r / 1024`. -/
theorem cover10 (i : S65536x256.Idx) : ∃ t : Fin cfg0.N, (cfg0.win 10).flush t = true ∧ i ∈ ((cfg0.win 10).blk t).view.set := by
  have hi0 : (i 0).val < 65536 := (i 0).isLt
  have hi1 : (i 1).val < 256 := (i 1).isLt
  have hN : cfg0.N = 64 := N_0
  have hlt : (i 0).val / 1024 < cfg0.N := by omega
  obtain ⟨t, ht⟩ : ∃ t : Fin cfg0.N, t.val = (i 0).val / 1024 := ⟨⟨_, hlt⟩, rfl⟩
  refine ⟨t, flush0_10 t, ?_⟩
  obtain ⟨f0, f1, f2, f3, f4, f5, f6, f7, f8, f9, f10, f11, f12, f13, f14, f15, f16, f17, f18, f19, f20, f21, f22, f23, f24, f25⟩ := idx_facts t
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 256 ≤ (i 1).val ∧ (i 1).val < win0_10.index t (1 : Fin 2) * 256 + 256; omega

/-- After the run, output window 10's array is the cell's function of the arguments. -/
theorem final10 (c : Dev nD) : (dats m 0 c).arrAt 10 cfg0.N = (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) :=
  (dats m 0 c).arrAt_eq_of_cover 10 (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (fun t _ => flushed10_eq m c t) cover10

/-- What point `t` writes back to output window 11 is rows `1024·t …` of the cell's function of the arguments. -/
theorem flushed11_eq (c : Dev nD) (t : Fin cfg0.N) :
    (dats m 0 c).flushed 11 t = ((cfg0.win 11).blk t).view.read (Elt Ideal) (Cert.Lstm.nextC (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) := by
  rw [Cert.KernelIdeal.Value.flushed11]
  unfold out0_11
  rw [View.canon_unit_zero hz]
  simp only [View.ld_unit_zero (S := S1024x256) hz, View.ld_unit_zero (S := S1024x64) hz, View.ld_unit_zero (S := S576x32) hz, View.ld_unit_zero (S := S1x32) hz, View.ld_unit_zero (S := S32x1024) hz, View.ld_unit_zero (S := S1x1024) hz, View.ld_unit_zero (S := S832x1) hz, View.ld_unit_zero (S := S1x1) hz]
  rw [iblk0_eq, iblk1_eq, iblk2_eq, iblk3_eq, iblk4_eq, iblk5_eq, iblk6_eq, iblk7_eq, v0_eq, v1_eq,
    V_main_arg0, V_main_arg1, V_main_arg2, V_main_arg3, V_main_arg4, V_main_arg6]
  rw [Rows.pay4_rows]
  obtain ⟨f0, f1, f2, f3, f4, f5, f6, f7, f8, f9, f10, f11, f12, f13, f14, f15, f16, f17, f18, f19, f20, f21, f22, f23, f24, f25⟩ := idx_facts t
  funext j
  show (Cert.Lstm.nextC (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (Rows.t256.idx (Fin.cast N_0 t) j) = (Cert.Lstm.nextC (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (((cfg0.win 11).blk t).view.emb j)
  refine congrArg _ ?_
  funext a; apply Fin.ext
  match a with
  | ⟨0, _⟩ => show t.val * 1024 + (j 0).val = win0_11.index t (0 : Fin 2) * 1024 + 1 * (j 0).val; omega
  | ⟨1, _⟩ => show (j 1).val = win0_11.index t (1 : Fin 2) * 256 + 1 * (j 1).val; omega

/-- An index of the array is in point `t`'s block iff each coordinate is in the block's range on its axis. -/
theorem mem_blk11 (t : Fin cfg0.N) (i : S65536x256.Idx) :
    i ∈ ((cfg0.win 11).blk t).view.set ↔ ∀ a : Fin 2, win0_11.index t a * S1024x256.size a ≤ (i a).val ∧ (i a).val < win0_11.index t a * S1024x256.size a + S1024x256.size a := by
  show i ∈ ((View.whole main_v3_1).slice (win0_11.rect t)).set ↔ _
  rw [View.set_slice_whole, Rect.mem_set_unit]
  exact Iff.rfl

/-- Row `r` lies in the block of point `r / 1024`. -/
theorem cover11 (i : S65536x256.Idx) : ∃ t : Fin cfg0.N, (cfg0.win 11).flush t = true ∧ i ∈ ((cfg0.win 11).blk t).view.set := by
  have hi0 : (i 0).val < 65536 := (i 0).isLt
  have hi1 : (i 1).val < 256 := (i 1).isLt
  have hN : cfg0.N = 64 := N_0
  have hlt : (i 0).val / 1024 < cfg0.N := by omega
  obtain ⟨t, ht⟩ : ∃ t : Fin cfg0.N, t.val = (i 0).val / 1024 := ⟨⟨_, hlt⟩, rfl⟩
  refine ⟨t, flush0_11 t, ?_⟩
  obtain ⟨f0, f1, f2, f3, f4, f5, f6, f7, f8, f9, f10, f11, f12, f13, f14, f15, f16, f17, f18, f19, f20, f21, f22, f23, f24, f25⟩ := idx_facts t
  rw [mem_blk11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 256 ≤ (i 1).val ∧ (i 1).val < win0_11.index t (1 : Fin 2) * 256 + 256; omega

/-- After the run, output window 11's array is the cell's function of the arguments. -/
theorem final11 (c : Dev nD) : (dats m 0 c).arrAt 11 cfg0.N = (Cert.Lstm.nextC (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) :=
  (dats m 0 c).arrAt_eq_of_cover 11 (Cert.Lstm.nextC (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (fun t _ => flushed11_eq m c t) cover11

/-- What point `t` writes back to output window 12 is rows `1024·t …` of the cell's function of the arguments. -/
theorem flushed12_eq (c : Dev nD) (t : Fin cfg0.N) :
    (dats m 0 c).flushed 12 t = ((cfg0.win 12).blk t).view.read (Elt Ideal) (Cert.Lstm.reward (Cert.Lstm.xcat (m ((c : Thread nD τ).loc main_arg3)) (m ((c : Thread nD τ).loc main_arg2)) (m ((c : Thread nD τ).loc main_arg0))) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg9))) := by
  rw [Cert.KernelIdeal.Value.flushed12]
  unfold out0_12
  rw [View.canon_unit_zero hz]
  simp only [View.ld_unit_zero (S := S1024x256) hz, View.ld_unit_zero (S := S1024x64) hz, View.ld_unit_zero (S := S576x32) hz, View.ld_unit_zero (S := S1x32) hz, View.ld_unit_zero (S := S32x1024) hz, View.ld_unit_zero (S := S1x1024) hz, View.ld_unit_zero (S := S832x1) hz, View.ld_unit_zero (S := S1x1) hz]
  rw [iblk0_eq, iblk1_eq, iblk2_eq, iblk3_eq, iblk4_eq, iblk5_eq, iblk6_eq, iblk7_eq, iblk8_eq, iblk9_eq, v2_eq, V_main_arg8, v0_eq, v1_eq,
    V_main_arg0, V_main_arg1, V_main_arg2, V_main_arg3, V_main_arg4, V_main_arg6]
  rw [Rows.pay1_rows]
  obtain ⟨f0, f1, f2, f3, f4, f5, f6, f7, f8, f9, f10, f11, f12, f13, f14, f15, f16, f17, f18, f19, f20, f21, f22, f23, f24, f25⟩ := idx_facts t
  funext j
  show (Cert.Lstm.reward (Cert.Lstm.xcat (m ((c : Thread nD τ).loc main_arg3)) (m ((c : Thread nD τ).loc main_arg2)) (m ((c : Thread nD τ).loc main_arg0))) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg9))) (Rows.t1.idx (Fin.cast N_0 t) j) = (Cert.Lstm.reward (Cert.Lstm.xcat (m ((c : Thread nD τ).loc main_arg3)) (m ((c : Thread nD τ).loc main_arg2)) (m ((c : Thread nD τ).loc main_arg0))) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg9))) (((cfg0.win 12).blk t).view.emb j)
  refine congrArg _ ?_
  funext a; apply Fin.ext
  match a with
  | ⟨0, _⟩ => show t.val * 1024 + (j 0).val = win0_12.index t (0 : Fin 2) * 1024 + 1 * (j 0).val; omega
  | ⟨1, _⟩ => show (j 1).val = win0_12.index t (1 : Fin 2) * 1 + 1 * (j 1).val; omega

/-- An index of the array is in point `t`'s block iff each coordinate is in the block's range on its axis. -/
theorem mem_blk12 (t : Fin cfg0.N) (i : S65536x1.Idx) :
    i ∈ ((cfg0.win 12).blk t).view.set ↔ ∀ a : Fin 2, win0_12.index t a * S1024x1.size a ≤ (i a).val ∧ (i a).val < win0_12.index t a * S1024x1.size a + S1024x1.size a := by
  show i ∈ ((View.whole main_v3_2).slice (win0_12.rect t)).set ↔ _
  rw [View.set_slice_whole, Rect.mem_set_unit]
  exact Iff.rfl

/-- Row `r` lies in the block of point `r / 1024`. -/
theorem cover12 (i : S65536x1.Idx) : ∃ t : Fin cfg0.N, (cfg0.win 12).flush t = true ∧ i ∈ ((cfg0.win 12).blk t).view.set := by
  have hi0 : (i 0).val < 65536 := (i 0).isLt
  have hi1 : (i 1).val < 1 := (i 1).isLt
  have hN : cfg0.N = 64 := N_0
  have hlt : (i 0).val / 1024 < cfg0.N := by omega
  obtain ⟨t, ht⟩ : ∃ t : Fin cfg0.N, t.val = (i 0).val / 1024 := ⟨⟨_, hlt⟩, rfl⟩
  refine ⟨t, flush0_12 t, ?_⟩
  obtain ⟨f0, f1, f2, f3, f4, f5, f6, f7, f8, f9, f10, f11, f12, f13, f14, f15, f16, f17, f18, f19, f20, f21, f22, f23, f24, f25⟩ := idx_facts t
  rw [mem_blk12]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 1 ≤ (i 1).val ∧ (i 1).val < win0_12.index t (1 : Fin 2) * 1 + 1; omega

/-- After the run, output window 12's array is the cell's function of the arguments. -/
theorem final12 (c : Dev nD) : (dats m 0 c).arrAt 12 cfg0.N = (Cert.Lstm.reward (Cert.Lstm.xcat (m ((c : Thread nD τ).loc main_arg3)) (m ((c : Thread nD τ).loc main_arg2)) (m ((c : Thread nD τ).loc main_arg0))) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg9))) :=
  (dats m 0 c).arrAt_eq_of_cover 12 (Cert.Lstm.reward (Cert.Lstm.xcat (m ((c : Thread nD τ).loc main_arg3)) (m ((c : Thread nD τ).loc main_arg2)) (m ((c : Thread nD τ).loc main_arg0))) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg9))) (fun t _ => flushed12_eq m c t) cover12

/-- The kernel's run with its three results named by the cell's functions, the arguments unchanged. -/
theorem run : θ_run defs (onTc (τ := τ) (main (F := Ideal))) ⟨m, fun _ => 0, ρ⟩ fun r => ∀ c : Dev nD,
      r.2.mem ((c : Thread nD τ).loc main_v3_0) = (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)))
      ∧ r.2.mem ((c : Thread nD τ).loc main_v3_1) = (Cert.Lstm.nextC (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)))
      ∧ r.2.mem ((c : Thread nD τ).loc main_v3_2) = (Cert.Lstm.reward (Cert.Lstm.xcat (m ((c : Thread nD τ).loc main_arg3)) (m ((c : Thread nD τ).loc main_arg2)) (m ((c : Thread nD τ).loc main_arg0))) (Cert.Lstm.nextH (Cert.Lstm.gatesOf (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2.1.trans (final12 m c), (h c).2.2.2⟩)
    (Cert.KernelIdeal.Value.run_blocks m ρ)

end Cert.Lstm.Arr

end
-- ==== Proof.lean ====
/- One step of a fully connected LSTM cell on a batch of 65536 rows, as a kernel over 64 blocks of 1024 rows against a
   plain array program.

   Both compute, on the extended reals, `x = [dynamics | action | prev_h]`, `h₁ = tanh (x · W₁ + b₁)`,
   `g = h₁ · W₂ + b₂` read as four gates `i, f, ĉ, o` of 256 columns, `next_c = σ(f) · prev_c + σ(i) · tanh ĉ`,
   `next_h = σ(o) · tanh next_c` and `reward = tanh ([x | next_h] · W_r + b_r)`, with `σ v = 1 / (1 + e^(−v))`.
   The kernel rounds the products' operands to a narrower format, which is the identity on the extended reals, and
   uses the chip's logistic operation, which is that quotient; its products go into a zero accumulator, which adds
   nothing. Every step works row by row, so the body's result on rows `1024·t … 1024·t + 1023` is that block of rows of
   the whole-array functions (Proof/KernelRows.lean), the 64 blocks cover the batch (Proof/KernelArrays.lean), and the
   array program's composed term is those functions as written (Proof/RefSpec.lean). No law of arithmetic is used beyond
   these identities, so the inputs' finiteness is never opened. The kernel's idealization applies no rewrite. -/
import proofs.«140324_j45457933860875_1_alg».proof.Defs
import proofs.«140324_j45457933860875_1_alg».proof.Proof.Gen.Kernel
import proofs.«140324_j45457933860875_1_alg».proof.Proof.Gen.Kernel.Skeleton
import proofs.«140324_j45457933860875_1_alg».proof.Proof.Gen.Kernel.Launch
import proofs.«140324_j45457933860875_1_alg».proof.Proof.Gen.Kernel.Points
import proofs.«140324_j45457933860875_1_alg».proof.Proof.Gen.Kernel.Frame
import proofs.«140324_j45457933860875_1_alg».proof.Proof.Gen.KernelIdeal
import proofs.«140324_j45457933860875_1_alg».proof.Proof.Gen.KernelIdeal.Skeleton
import proofs.«140324_j45457933860875_1_alg».proof.Proof.Gen.KernelIdeal.Launch
import proofs.«140324_j45457933860875_1_alg».proof.Proof.Gen.KernelIdeal.Points
import proofs.«140324_j45457933860875_1_alg».proof.Proof.Gen.KernelIdeal.Frame
import proofs.«140324_j45457933860875_1_alg».proof.Proof.Gen.ReferenceIdeal
import proofs.«140324_j45457933860875_1_alg».proof.Proof.Gen.Pre_finite_inputs
import proofs.«140324_j45457933860875_1_alg».proof.Proof.Gen.KernelIdeal.Value
import proofs.«140324_j45457933860875_1_alg».proof.Proof.Gen.ReferenceIdeal.Run
import proofs.«140324_j45457933860875_1_alg».proof.Proof.RefSpec
import proofs.«140324_j45457933860875_1_alg».proof.Proof.KernelArrays
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The array program's run, with its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both runs end with `next_h`, `next_c` and the reward of their arguments; the arguments agree. -/
theorem algebraic : Cert.algebraic_KernelIdeal_ReferenceIdeal := by
  intro m ρ m' ρ' _ hagree
  refine ⟨fun c => Cert.Lstm.nextH (Cert.Lstm.gatesOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)),
    fun c => Cert.Lstm.nextC (Cert.Lstm.gatesOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)),
    fun c => Cert.Lstm.reward (Cert.Lstm.xcat (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (Cert.Lstm.nextH (Cert.Lstm.gatesOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Lstm.Arr.run m ρ, ?_⟩
  refine (θ_run Cert.ReferenceIdeal.defs _ _).mono (fun _ h c => ?_) (Cert.Lstm.ref_run m' ρ')
  obtain ⟨a0, a1, a2, a3, a4, a5, a6, a7, a8, a9⟩ := hagree c
  refine ⟨(h c).1.trans ?_, (h c).2.1.trans ?_, (h c).2.2.1.trans ?_, (h c).2.2.2⟩
  · dsimp only [Cert.Lstm.refGates]; rw [a0, a1, a2, a3, a4, a5, a6, a7]
  · dsimp only [Cert.Lstm.refGates]; rw [a0, a1, a2, a3, a4, a5, a6, a7]
  · dsimp only [Cert.Lstm.refGates]; rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
